-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S64 : Shape := ⟨1, ![64]⟩
abbrev S8x256x256 : Shape := ⟨3, ![8, 256, 256]⟩
abbrev S8x256 : Shape := ⟨2, ![8, 256]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S8x256 : S_.BroadcastsInDim S8x256 (![] : Fin 0 → Fin S8x256.rank)
  reducesTo_S8x256_S_d0_1 : S8x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .slt main_arg1 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  main_v20

def fn {F : FTy → Type} [FloatOps F] (main_arg0 : FVec F S64x256x2048 .f32) (main_arg1 : IVec S64 32) (main_arg2 : FVec F S8x256x256 .f32) (main_arg3 : FVec F S8x256 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  let main_v4 : FVec F S8x256x256 .f32 := Host.absf main_arg2
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S8x256 .f32 := Host.absf main_arg3
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 32 := constantI S_ 32 8#32
  fn_part1 (F := F) main_arg1 main_v13 main_v15 main_c_5
-- ==== Kernel.lean ====
abbrev S64x256x2048 : Shape := ⟨3, ![64, 256, 2048]⟩
abbrev S64 : Shape := ⟨1, ![64]⟩
abbrev S8x256x256 : Shape := ⟨3, ![8, 256, 256]⟩
abbrev S8x256 : Shape := ⟨2, ![8, 256]⟩
abbrev S8x256x1 : Shape := ⟨3, ![8, 256, 1]⟩
abbrev S1x256x2048 : Shape := ⟨3, ![1, 256, 2048]⟩
abbrev S1x256x256 : Shape := ⟨3, ![1, 256, 256]⟩
abbrev S1 : Shape := ⟨1, ![1]⟩
abbrev S1x256x1 : Shape := ⟨3, ![1, 256, 1]⟩
abbrev S256x2048 : Shape := ⟨2, ![256, 2048]⟩
abbrev S256x256 : Shape := ⟨2, ![256, 256]⟩
abbrev S256x1 : Shape := ⟨2, ![256, 1]⟩

abbrev nBuf : Space → Nat
  | .hbm => 6
  | .vmem => 8
  | .smem => 1
  | _ => 0

abbrev bufTy : (tb : Table) → Fin (tcTables nBuf tb) → BufTy
  | .hbm, ⟨0, _⟩ => ⟨S64x256x2048, .f32⟩
  | .hbm, ⟨1, _⟩ => ⟨S8x256x256, .f32⟩
  | .hbm, ⟨2, _⟩ => ⟨S8x256, .f32⟩
  | .hbm, ⟨3, _⟩ => ⟨S8x256x256, .f32⟩
  | .hbm, ⟨4, _⟩ => ⟨S8x256x1, .f32⟩
  | .hbm, ⟨5, _⟩ => ⟨S64x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x256, .f32⟩
  | .local _ .vmem, ⟨3, _⟩ => ⟨S1x256x256, .f32⟩
  | .local _ .vmem, ⟨4, _⟩ => ⟨S1x256x1, .f32⟩
  | .local _ .vmem, ⟨5, _⟩ => ⟨S1x256x1, .f32⟩
  | .local _ .vmem, ⟨6, _⟩ => ⟨S1x256x2048, .f32⟩
  | .local _ .vmem, ⟨7, _⟩ => ⟨S1x256x2048, .f32⟩
  | .local _ .smem, ⟨0, _⟩ => ⟨S64, .i32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x256x256_S8x256x256_0_2_1 : S8x256x256.Transposes [0, 2, 1] S8x256x256
  bcast_S8x256_S8x256x1_0_1 : S8x256.BroadcastsInDim S8x256x1 (![0, 1] : Fin 2 → Fin S8x256x1.rank)
  numel1_S1 : S1.numel = 1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x2048 : S256x1.Broadcasts S256x2048
  shapeCasts_S256x2048_S1x256x2048 : S256x2048.ShapeCasts S1x256x2048
  dot_S256x256_S256x2048_S256x2048_1_0_0_1_n_n_wf : DotDims.WF S256x256 S256x2048 S256x2048 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .f32 = 32 ∨ (Rect.block (s := S64x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S64x256x2048.size a
  hwx0_3 : ∀ i : grid0.Coords, EltTy.bits .f32 = 32 ∨ (Rect.block (s := S64x256x2048) S1x256x2048.size (cc0_transform_3 i) (hinb0_3 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev spec0_0 : Pipeline.WinSpec sig grid0.rank :=
  Pipeline.WinSpec.ofSpec (Memref.whole main_arg0) S1x256x2048.size reads0_0 false false 2 stage0_0 sem0_0 nbuf0_0 hstage0_0

abbrev spec0_1 : Pipeline.WinSpec sig grid0.rank :=
  Pipeline.WinSpec.ofSpec (Memref.whole main_v0) S1x256x256.size reads0_1 false false 2 stage0_1 sem0_1 nbuf0_1 hstage0_1

abbrev spec0_2 : Pipeline.WinSpec sig grid0.rank :=
  Pipeline.WinSpec.ofSpec (Memref.whole main_v1) S1x256x1.size reads0_2 false false 2 stage0_2 sem0_2 nbuf0_2 hstage0_2

abbrev spec0_3 : Pipeline.WinSpec sig grid0.rank :=
  Pipeline.WinSpec.ofSpec (Memref.whole main_v2) S1x256x2048.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S8x256x256.size a), EltTy.bits .f32 = 32 ∨ (Rect.block (s := S8x256x256) S1x256x256.size (cc0_transform_1 k0_off1_inb numel1_S1 pf i) h).WholeWords (EltTy.packing .f32)) ∧
  (∀ i : grid0.Coords, ∃ h : (∀ a, (cc0_transform_2 k0_off1_inb numel1_S1 pf i a + 1) * S1x256x1.size a ≤ S8x256x1.size a), EltTy.bits .f32 = 32 ∨ (Rect.block (s := S8x256x1) S1x256x1.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x256x2048 : Shape := ⟨3, ![64, 256, 2048]⟩
abbrev S64 : Shape := ⟨1, ![64]⟩
abbrev S8x256x256 : Shape := ⟨3, ![8, 256, 256]⟩
abbrev S8x256 : Shape := ⟨2, ![8, 256]⟩
abbrev S_ : Shape := ⟨0, ![]⟩
abbrev S64x1 : Shape := ⟨2, ![64, 1]⟩
abbrev S64x256x256 : Shape := ⟨3, ![64, 256, 256]⟩
abbrev S64x256 : Shape := ⟨2, ![64, 256]⟩
abbrev S64x256x1 : Shape := ⟨3, ![64, 256, 1]⟩

abbrev nBuf : Space → Nat
  | .hbm => 26
  | .vmem => 0
  | .smem => 0
  | _ => 0

abbrev bufTy : (tb : Table) → Fin (tcTables nBuf tb) → BufTy
  | .hbm, ⟨0, _⟩ => ⟨S64x256x2048, .f32⟩
  | .hbm, ⟨1, _⟩ => ⟨S64, .i32⟩
  | .hbm, ⟨2, _⟩ => ⟨S8x256x256, .f32⟩
  | .hbm, ⟨3, _⟩ => ⟨S8x256, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x256x256, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x256, .f32⟩
  | .hbm, ⟨22, _⟩ => ⟨S64x256x2048, .f32⟩
  | .hbm, ⟨23, _⟩ => ⟨S64x256x1, .f32⟩
  | .hbm, ⟨24, _⟩ => ⟨S64x256x2048, .f32⟩
  | .hbm, ⟨25, _⟩ => ⟨S64x256x2048, .f32⟩
  | _, _ => ⟨S64x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x256_S64x256x1_0_1 : S64x256.BroadcastsInDim S64x256x1 (![0, 1] : Fin 2 → Fin S64x256x1.rank)
  bcast_S64x256x1_S64x256x2048_0_1_2 : S64x256x1.BroadcastsInDim S64x256x2048 (![0, 1, 2] : Fin 3 → Fin S64x256x2048.rank)
  gather_S8x256x256_S64x1_S64x256x256_12_0_n_n_0_1_1256256_wf : GatherDims.WF S8x256x256 S64x1 S64x256x256 [1, 2] [0] [] [0] [] 1 ![1, 256, 256]
  gather_S8x256_S64x1_S64x256_1_0_n_n_0_1_1256_wf : GatherDims.WF S8x256 S64x1 S64x256 [1] [0] [] [0] [] 1 ![1, 256]
  dot_S64x256x256_S64x256x2048_S64x256x2048_1_1_2_2_0_0_wf : DotDims.WF S64x256x256 S64x256x2048 S64x256x2048 [1] [1] [2] [2] [0] [0]

variable [Facts₀]

def gather_S8x256x256_S64x1_S64x256x256_12_0_n_n_0_1_1256256 : GatherDims S8x256x256 S64x1 S64x256x256 where
  offsetDims := [1, 2]
  collapsedSliceDims := [0]
  operandBatchingDims := []
  startIndicesBatchingDims := []
  startIndexMap := [0]
  indexVectorDim := 1
  sliceSizes := ![1, 256, 256]
  wf := gather_S8x256x256_S64x1_S64x256x256_12_0_n_n_0_1_1256256_wf
def gather_S8x256_S64x1_S64x256_1_0_n_n_0_1_1256 : GatherDims S8x256 S64x1 S64x256 where
  offsetDims := [1]
  collapsedSliceDims := [0]
  operandBatchingDims := []
  startIndicesBatchingDims := []
  startIndexMap := [0]
  indexVectorDim := 1
  sliceSizes := ![1, 256]
  wf := gather_S8x256_S64x1_S64x256_1_0_n_n_0_1_1256_wf
def dot_S64x256x256_S64x256x2048_S64x256x2048_1_1_2_2_0_0 : DotDims S64x256x256 S64x256x2048 S64x256x2048 where
  lhsContracting := [1]
  rhsContracting := [1]
  lhsNonContracting := [2]
  rhsNonContracting := [2]
  lhsBatch := [0]
  rhsBatch := [0]
  wf := dot_S64x256x256_S64x256x2048_S64x256x2048_1_1_2_2_0_0_wf

class Facts : Prop extends Facts₀ where

variable [Facts]
-- ==== Proof.SubjectRange.lean ====
/-
  The index precondition, read back. The precondition's last conjunct is
  `all (0 ≤ subjects) ∧ (subjects < 8)`, both comparisons signed, reduced by `and` over the 64 lanes.
  When the whole precondition is 1, that reduction is 1, so every lane's conjunction is 1, so at every
  batch position `b` the word `subjects[b]` has signed value in [0, 8). Such a word has the same signed
  and unsigned value, below 8: it names one of the 8 subject slices.
-/
import proofs.«418299_j63428077027510_1_alg».proof.Pre_finite_inputs
import Idealize.ShloMosaic.Lib.ReduceAll

noncomputable section

namespace Cert.SubjectRange

open Idealize.ShloMosaic Cert.Pre_finite_inputs

variable [Cert.Pre_finite_inputs.Facts]
open Cert.Pre_finite_inputs.Facts

/-- The rank-0 shape has one index. -/
instance : Subsingleton S_.Idx := ⟨fun _ _ => funext fun d => d.elim0⟩

/-- A 32-bit word whose signed value lies in [0, 8) has that value unsigned too. -/
theorem toNat_of_signed_range (w : BitVec 32) (h0 : 0 ≤ w.toInt) (h8 : w.toInt < 8) :
    w.toNat < 8 ∧ w.toInt = (w.toNat : Int) := by
  have hw := w.isLt
  rw [BitVec.toInt_eq_toNat_cond] at h0 h8 ⊢
  by_cases hc : 2 * w.toNat < 2 ^ 32
  · rw [if_pos hc] at h0 h8 ⊢
    exact ⟨by omega, rfl⟩
  · rw [if_neg hc] at h0 h8
    omega

/-- THE PRECONDITION DECODED at a lane: the subject word's signed value lies in [0, 8). -/
theorem signed_range {F : FTy → Type} [FloatOps F] (a0 : FVec F S64x256x2048 .f32) (a1 : IVec S64 32)
    (a2 : FVec F S8x256x256 .f32) (a3 : FVec F S8x256 .f32)
    (h : fn (F := F) a0 a1 a2 a3 = fun _ => 1#1) (i : S64.Idx) :
    0 ≤ (a1 i).toInt ∧ (a1 i).toInt < 8 := by
  have e := congrFun h (fun d => d.elim0)
  unfold fn fn_part1 at e
  dsimp only at e
  have eall := (IntOp.andi_eq_one.1 e).2
  have elane := Host.reduce_andi_all _ _ _ _ _ eall i
  obtain ⟨hge, hlt⟩ := IntOp.andi_eq_one.1 elane
  have hge' : (0#32 : BitVec 32).toInt ≤ (a1 i).toInt := IntOp.cmpi_sge.1 hge
  have hlt' : (a1 i).toInt < (8#32 : BitVec 32).toInt := IntOp.cmpi_slt.1 hlt
  have e0 : (0#32 : BitVec 32).toInt = 0 := by decide
  have e8 : (8#32 : BitVec 32).toInt = 8 := by decide
  rw [e0] at hge'; rw [e8] at hlt'
  exact ⟨hge', hlt'⟩

/-- So, unsigned, the word is below 8, -/
theorem toNat_lt {F : FTy → Type} [FloatOps F] (a0 : FVec F S64x256x2048 .f32) (a1 : IVec S64 32)
    (a2 : FVec F S8x256x256 .f32) (a3 : FVec F S8x256 .f32)
    (h : fn (F := F) a0 a1 a2 a3 = fun _ => 1#1) (i : S64.Idx) : (a1 i).toNat < 8 :=
  (toNat_of_signed_range _ (signed_range a0 a1 a2 a3 h i).1 (signed_range a0 a1 a2 a3 h i).2).1

/-- and its signed and unsigned readings agree. -/
theorem toInt_eq {F : FTy → Type} [FloatOps F] (a0 : FVec F S64x256x2048 .f32) (a1 : IVec S64 32)
    (a2 : FVec F S8x256x256 .f32) (a3 : FVec F S8x256 .f32)
    (h : fn (F := F) a0 a1 a2 a3 = fun _ => 1#1) (i : S64.Idx) : (a1 i).toInt = ((a1 i).toNat : Int) :=
  (toNat_of_signed_range _ (signed_range a0 a1 a2 a3 h i).1 (signed_range a0 a1 a2 a3 h i).2).2

end Cert.SubjectRange

end
-- ==== Proof.OkKernel.lean ====
/-
  The pipeline's side condition on the prefetched subject table, from the precondition.
  Windows 1 and 2 of the grid pick, at grid point i, the slice numbered subjects[i] along the leading axis
  (extent 8) of an [8, 256, 256] array and of an [8, 256, 1] array. For that slice to lie inside its array
  one needs subjects[i] < 8, read unsigned. The precondition bounds every subject word, signed, in [0, 8);
  such a word is below 8 unsigned as well. The remaining two axes start at 0 and span the whole extent.
  The elements are 32 bits wide, so every transfer is made of whole words.
-/
import proofs.«418299_j63428077027510_1_alg».proof.Defs
import proofs.«418299_j63428077027510_1_alg».proof.Proof.Gen.Kernel.Frame
import proofs.«418299_j63428077027510_1_alg».proof.Proof.Gen.Pre_finite_inputs
import proofs.«418299_j63428077027510_1_alg».proof.Proof.SubjectRange

set_option maxRecDepth 16384

noncomputable section

namespace Cert.Kernel.SubjectOk

open Cert.Kernel Cert.Kernel.Gen
open Idealize.ShloMosaic Idealize.ShloMosaic.TcCoe Idealize.SL.Sem

variable (m : (ℓ : Loc nD τ sig) → Buf (Elt Bits) ℓ)

/-- Every word of the subject table, as the region finds it, is below 8 unsigned. -/
theorem tbl_lt (h : Cert.Pre_Kernel m) (x : S64.Idx) : (tbl m 0 x).toNat < 8 := by
  have e : tbl m 0 = m (((0 : Dev nD) : Thread nD τ).loc main_arg1) := V_main_arg1 m 0
  rw [e]
  exact Cert.SubjectRange.toNat_lt _ _ _ _ (h 0) x

/-- Slice w (w < 8) of the leading axis, whole in the other two, lies inside [8, 256, 256]. -/
theorem slice_inb_sq (w : Nat) (hw : w < 8) (a : Fin 3) :
    ((![w, 0, 0] : Fin 3 → Nat) a + 1) * S1x256x256.size a ≤ S8x256x256.size a := by
  match a with
  | ⟨0, _⟩ => show (w + 1) * 1 ≤ 8; omega
  | ⟨1, _⟩ => show (0 + 1) * 256 ≤ 256; omega
  | ⟨2, _⟩ => show (0 + 1) * 256 ≤ 256; omega

/-- Slice w (w < 8) of the leading axis, whole in the other two, lies inside [8, 256, 1]. -/
theorem slice_inb_col (w : Nat) (hw : w < 8) (a : Fin 3) :
    ((![w, 0, 0] : Fin 3 → Nat) a + 1) * S1x256x1.size a ≤ S8x256x1.size a := by
  match a with
  | ⟨0, _⟩ => show (w + 1) * 1 ≤ 8; omega
  | ⟨1, _⟩ => show (0 + 1) * 256 ≤ 256; omega
  | ⟨2, _⟩ => show (0 + 1) * 1 ≤ 1; omega

/-- THE SIDE CONDITION: at every grid point the subject-indexed blocks of windows 1 and 2 lie inside their arrays. -/
theorem ok_of_pre (h : Cert.Pre_Kernel m) : Ok m := by
  refine ⟨fun i => ?_, fun i => ?_⟩
  · obtain ⟨w, hw, e⟩ : ∃ w : BitVec 32, w.toNat < 8 ∧
        cc0_transform_1 Facts₀.k0_off1_inb Facts₀.numel1_S1 (tbl m) i = ![w.toNat, 0, 0] :=
      ⟨_, tbl_lt m h _, rfl⟩
    refine ⟨fun a => ?_, Or.inl rfl⟩
    rw [e]
    exact slice_inb_sq _ hw a
  · obtain ⟨w, hw, e⟩ : ∃ w : BitVec 32, w.toNat < 8 ∧
        cc0_transform_2 Facts₀.k0_off1_inb Facts₀.numel1_S1 (tbl m) i = ![w.toNat, 0, 0] :=
      ⟨_, tbl_lt m h _, rfl⟩
    refine ⟨fun a => ?_, Or.inl rfl⟩
    rw [e]
    exact slice_inb_col _ hw a

end Cert.Kernel.SubjectOk

end
-- ==== Proof.OkKernelIdeal.lean ====
/-
  The pipeline's side condition on the prefetched subject table, from the precondition.
  Windows 1 and 2 of the grid pick, at grid point i, the slice numbered subjects[i] along the leading axis
  (extent 8) of an [8, 256, 256] array and of an [8, 256, 1] array. For that slice to lie inside its array
  one needs subjects[i] < 8, read unsigned. The precondition bounds every subject word, signed, in [0, 8);
  such a word is below 8 unsigned as well. The remaining two axes start at 0 and span the whole extent.
  The elements are 32 bits wide, so every transfer is made of whole words.
-/
import proofs.«418299_j63428077027510_1_alg».proof.Defs
import proofs.«418299_j63428077027510_1_alg».proof.Proof.Gen.KernelIdeal.Frame
import proofs.«418299_j63428077027510_1_alg».proof.Proof.Gen.Pre_finite_inputs
import proofs.«418299_j63428077027510_1_alg».proof.Proof.SubjectRange

set_option maxRecDepth 16384

noncomputable section

namespace Cert.KernelIdeal.SubjectOk

open Cert.KernelIdeal Cert.KernelIdeal.Gen
open Idealize.ShloMosaic Idealize.ShloMosaic.TcCoe Idealize.SL.Sem

variable (m : (ℓ : Loc nD τ sig) → Buf (Elt Ideal) ℓ)

/-- Every word of the subject table, as the region finds it, is below 8 unsigned. -/
theorem tbl_lt (h : Cert.Pre_KernelIdeal m) (x : S64.Idx) : (tbl m 0 x).toNat < 8 := by
  have e : tbl m 0 = m (((0 : Dev nD) : Thread nD τ).loc main_arg1) := V_main_arg1 m 0
  rw [e]
  exact Cert.SubjectRange.toNat_lt _ _ _ _ (h 0) x

/-- Slice w (w < 8) of the leading axis, whole in the other two, lies inside [8, 256, 256]. -/
theorem slice_inb_sq (w : Nat) (hw : w < 8) (a : Fin 3) :
    ((![w, 0, 0] : Fin 3 → Nat) a + 1) * S1x256x256.size a ≤ S8x256x256.size a := by
  match a with
  | ⟨0, _⟩ => show (w + 1) * 1 ≤ 8; omega
  | ⟨1, _⟩ => show (0 + 1) * 256 ≤ 256; omega
  | ⟨2, _⟩ => show (0 + 1) * 256 ≤ 256; omega

/-- Slice w (w < 8) of the leading axis, whole in the other two, lies inside [8, 256, 1]. -/
theorem slice_inb_col (w : Nat) (hw : w < 8) (a : Fin 3) :
    ((![w, 0, 0] : Fin 3 → Nat) a + 1) * S1x256x1.size a ≤ S8x256x1.size a := by
  match a with
  | ⟨0, _⟩ => show (w + 1) * 1 ≤ 8; omega
  | ⟨1, _⟩ => show (0 + 1) * 256 ≤ 256; omega
  | ⟨2, _⟩ => show (0 + 1) * 1 ≤ 1; omega

/-- THE SIDE CONDITION: at every grid point the subject-indexed blocks of windows 1 and 2 lie inside their arrays. -/
theorem ok_of_pre (h : Cert.Pre_KernelIdeal m) : Ok m := by
  refine ⟨fun i => ?_, fun i => ?_⟩
  · obtain ⟨w, hw, e⟩ : ∃ w : BitVec 32, w.toNat < 8 ∧
        cc0_transform_1 Facts₀.k0_off1_inb Facts₀.numel1_S1 (tbl m) i = ![w.toNat, 0, 0] :=
      ⟨_, tbl_lt m h _, rfl⟩
    refine ⟨fun a => ?_, Or.inl rfl⟩
    rw [e]
    exact slice_inb_sq _ hw a
  · obtain ⟨w, hw, e⟩ : ∃ w : BitVec 32, w.toNat < 8 ∧
        cc0_transform_2 Facts₀.k0_off1_inb Facts₀.numel1_S1 (tbl m) i = ![w.toNat, 0, 0] :=
      ⟨_, tbl_lt m h _, rfl⟩
    refine ⟨fun a => ?_, Or.inl rfl⟩
    rw [e]
    exact slice_inb_col _ hw a

end Cert.KernelIdeal.SubjectOk

end
-- ==== Proof.Routed.lean ====
/-
  The function both programs compute, over the extended reals.

  A batch position `b` (of 64) carries a subject word `s[b]`; it selects one of 8 slices of the weight
  table `w : [8, 256, 256]` (slice, input channel `c`, output channel `d`) and of the bias table
  `bias : [8, 256]`. The layer applied to `x : [64, 256, 2048]` (batch, input channel, time) is

      out[b, d, t] = (∑ c, w[σ b, c, d] · x[b, c, t]) + bias[σ b, d],

  with `σ b` the slice the word names. So that the function is total, `σ b` is the word's unsigned value
  capped at the last slice; for a word below 8 the cap does nothing.
-/
import Idealize.ShloMosaic.PureOps.Ideal
import Idealize.ShloMosaic.Lib.ValueIdx

noncomputable section

namespace Cert.Routed

open Idealize.ShloMosaic ValueIdx

/-- The slice a batch position selects: its subject word read unsigned, capped at 7. -/
def slice (s : IVec ⟨1, ![64]⟩ 32) (b : Fin 64) : Fin 8 := ⟨min (s (ix1 b)).toNat 7, by omega⟩

/-- A word below 8 names its own slice. -/
theorem slice_val (s : IVec ⟨1, ![64]⟩ 32) (b : Fin 64) (h : (s (ix1 b)).toNat < 8) :
    (slice s b).val = (s (ix1 b)).toNat := by
  show min (s (ix1 b)).toNat 7 = _
  omega

/-- The routed layer: per batch position, the selected slice's matrix applied along the channel axis, plus
    the selected slice's bias, constant along time. -/
def layer (s : IVec ⟨1, ![64]⟩ 32) (x : FVec Ideal ⟨3, ![64, 256, 2048]⟩ .f32)
    (w : FVec Ideal ⟨3, ![8, 256, 256]⟩ .f32) (bias : FVec Ideal ⟨2, ![8, 256]⟩ .f32) :
    FVec Ideal ⟨3, ![64, 256, 2048]⟩ .f32 := fun i =>
  (∑ c : Fin 256, w (ix3 (slice s (i 0)) c (i 1)) * x (ix3 (i 0) c (i 2))) + bias (ix2 (slice s (i 0)) (i 1))

/-- The layer at explicit coordinates. -/
theorem layer_apply (s : IVec ⟨1, ![64]⟩ 32) (x : FVec Ideal ⟨3, ![64, 256, 2048]⟩ .f32)
    (w : FVec Ideal ⟨3, ![8, 256, 256]⟩ .f32) (bias : FVec Ideal ⟨2, ![8, 256]⟩ .f32)
    (b : Fin 64) (d : Fin 256) (t : Fin 2048) :
    layer s x w bias (ix3 b d t)
      = (∑ c : Fin 256, w (ix3 (slice s b) c d) * x (ix3 b c t)) + bias (ix2 (slice s b) d) := rfl

end Cert.Routed

end
-- ==== Proof.RefRouted.lean ====
/-
  The reference program computes the routed layer.

  The reference reads, per batch position `b`, the subject word `s[b]`, adds 8 to it when it is negative,
  and uses the result as a start index into the weight table `w : [8, 256, 256]` and the bias table
  `bias : [8, 256]`: a start index is read as a signed integer and moved into the range in which the slice
  fits, here `[0, 7]`. It then contracts the selected weight slice with `x` along the input channel and
  adds the selected bias row, constant along time.

  When every subject word has signed value in `[0, 8)`, the word is not negative, so nothing is added; its
  signed and unsigned values agree and are at most 7, so the start index is the slice `σ b` of the
  specification. Hence element `(b, d, t)` of the reference's result is

      (∑ c, w[σ b, c, d] · x[b, c, t]) + bias[σ b, d],

  the routed layer.
-/
import proofs.«418299_j63428077027510_1_alg».proof.Proof.Gen.ReferenceIdeal.Read
import proofs.«418299_j63428077027510_1_alg».proof.Proof.Routed
import Idealize.ShloMosaic.Lib.ValueIdx
import Idealize.ShloMosaic.PureOps.Ideal.Laws

noncomputable section

namespace Cert.ReferenceIdeal.Routed

open Cert.ReferenceIdeal Cert.ReferenceIdeal.Gen Cert.ReferenceIdeal.Read Idealize.ShloMosaic Idealize.ShloMosaic.ValueIdx

/-! ## The subject word survives the wrap-around of negative indices -/

/-- A 32-bit word whose signed value lies in [0, 8): the signed value, taken as a natural number, is the
    unsigned value, and it is below 8. -/
theorem toNat_of_range (w : BitVec 32) (h0 : 0 ≤ w.toInt) (h8 : w.toInt < 8) :
    w.toInt.toNat = w.toNat ∧ w.toNat < 8 := by
  have hw := w.isLt
  rw [BitVec.toInt_eq_toNat_cond] at h0 h8 ⊢
  by_cases hc : 2 * w.toNat < 2 ^ 32
  · rw [if_pos hc] at h0 h8 ⊢
    exact ⟨Int.toNat_natCast _, by omega⟩
  · rw [if_neg hc] at h0 h8
    omega

/-- A word that is not negative fails the signed test "below 0". -/
theorem cmp_neg_zero (w : BitVec 32) (h0 : 0 ≤ w.toInt) : IntOp.cmpi .slt w 0#32 = 0#1 := by
  refine eq_zero_of_ne_one fun h => ?_
  have hlt := IntOp.cmpi_slt.1 h
  have e0 : (0#32 : BitVec 32).toInt = 0 := by decide
  omega

/-- "Add 8 if negative" leaves a word that is not negative alone (the index used for the weights). -/
theorem wrapped_v4 (x1 : IVec S64 32) (i : S64.Idx) (h0 : 0 ≤ (x1 i).toInt) :
    val_main_v4 (F := Ideal) x1 i = x1 i := by
  rw [val_main_v4_apply, val_main_v1_apply, val_main_v0_apply, val_main_c_apply, cmp_neg_zero _ h0, select_zero]

/-- The same for the index used for the bias. -/
theorem wrapped_v11 (x1 : IVec S64 32) (i : S64.Idx) (h0 : 0 ≤ (x1 i).toInt) :
    val_main_v11 (F := Ideal) x1 i = x1 i := by
  rw [val_main_v11_apply, val_main_v8_apply, val_main_v7_apply, val_main_c_1_apply, cmp_neg_zero _ h0, select_zero]

/-- The start-index array `[64, 1]` for the weights holds at `(b, 0)` the subject word of `b`. -/
theorem v5_at (x1 : IVec S64 32) (b : Fin 64) (h0 : 0 ≤ (x1 (ix1 b)).toInt) :
    val_main_v5 (F := Ideal) x1 (ix2 b (0 : Fin 1)) = x1 (ix1 b) := by
  have e : idx_main_v5 (ix2 b (0 : Fin 1)) = ix1 b := funext fun a => by match a with | ⟨0, _⟩ => rfl
  rw [val_main_v5_apply, e, wrapped_v4 _ _ h0]

/-- The start-index array for the bias holds at `(b, 0)` the subject word of `b`. -/
theorem v12_at (x1 : IVec S64 32) (b : Fin 64) (h0 : 0 ≤ (x1 (ix1 b)).toInt) :
    val_main_v12 (F := Ideal) x1 (ix2 b (0 : Fin 1)) = x1 (ix1 b) := by
  have e : idx_main_v12 (ix2 b (0 : Fin 1)) = ix1 b := funext fun a => by match a with | ⟨0, _⟩ => rfl
  rw [val_main_v12_apply, e, wrapped_v11 _ _ h0]

/-! ## Which operand element each gather reads

Both gathers take whole slices along the table's first axis: that axis is collapsed and is the only one a
start index addresses, so its coordinate is the start index read signed and moved into `[0, 7]`; on every
other axis the slice is the full axis and starts at 0, so the coordinate is the result's own. -/

/-- The dimension numbers of the gather of weight slices. -/
abbrev G6 : GatherDims S8x256x256 S64x1 S64x256x256 := gather_S8x256x256_S64x1_S64x256x256_12_0_n_n_0_1_1256256
/-- The dimension numbers of the gather of bias rows. -/
abbrev G13 : GatherDims S8x256 S64x1 S64x256 := gather_S8x256_S64x1_S64x256_1_0_n_n_0_1_1256

/-- Weights, slice axis: the start index at `(j 0, 0)`, read signed and capped at 7. -/
theorem g6_axis0 {w : Nat} (j : S64x256x256.Idx) (idx : IVec S64x1 w) :
    (G6.operandIdx j idx 0).val = min (idx (ix2 (j 0) (0 : Fin 1))).toInt.toNat 7 := by
  show G6.start j idx 0 + G6.batchCoord j 0 + G6.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ G6.startIndexMap from List.mem_singleton.mpr rfl)]
  have hsi : G6.siIdx j ⟨List.idxOf (0 : Fin 3) G6.startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Weights, input-channel axis: the result's own coordinate. -/
theorem g6_axis1 {w : Nat} (j : S64x256x256.Idx) (idx : IVec S64x1 w) :
    (G6.operandIdx j idx 1).val = (j 1).val := by
  show G6.start j idx 1 + G6.batchCoord j 1 + G6.offCoord j 1 = _
  rw [GatherDims.batchCoord_eq_zero _ _ _ List.not_mem_nil]
  unfold GatherDims.start GatherDims.offCoord
  rw [dif_neg (show ¬ (1 : Fin 3) ∈ G6.startIndexMap by decide), dif_pos (show (1 : Fin 3) ∈ G6.sKept by decide)]
  simp only [Nat.add_zero, Nat.zero_add]
  rfl

/-- Weights, output-channel axis: the result's own coordinate. -/
theorem g6_axis2 {w : Nat} (j : S64x256x256.Idx) (idx : IVec S64x1 w) :
    (G6.operandIdx j idx 2).val = (j 2).val := by
  show G6.start j idx 2 + G6.batchCoord j 2 + G6.offCoord j 2 = _
  rw [GatherDims.batchCoord_eq_zero _ _ _ List.not_mem_nil]
  unfold GatherDims.start GatherDims.offCoord
  rw [dif_neg (show ¬ (2 : Fin 3) ∈ G6.startIndexMap by decide), dif_pos (show (2 : Fin 3) ∈ G6.sKept by decide)]
  simp only [Nat.add_zero, Nat.zero_add]
  rfl

/-- Bias, slice axis: the start index at `(j 0, 0)`, read signed and capped at 7. -/
theorem g13_axis0 {w : Nat} (j : S64x256.Idx) (idx : IVec S64x1 w) :
    (G13.operandIdx j idx 0).val = min (idx (ix2 (j 0) (0 : Fin 1))).toInt.toNat 7 := by
  show G13.start j idx 0 + G13.batchCoord j 0 + G13.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ G13.startIndexMap from List.mem_singleton.mpr rfl)]
  have hsi : G13.siIdx j ⟨List.idxOf (0 : Fin 2) G13.startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Bias, channel axis: the result's own coordinate. -/
theorem g13_axis1 {w : Nat} (j : S64x256.Idx) (idx : IVec S64x1 w) :
    (G13.operandIdx j idx 1).val = (j 1).val := by
  show G13.start j idx 1 + G13.batchCoord j 1 + G13.offCoord j 1 = _
  rw [GatherDims.batchCoord_eq_zero _ _ _ List.not_mem_nil]
  unfold GatherDims.start GatherDims.offCoord
  rw [dif_neg (show ¬ (1 : Fin 2) ∈ G13.startIndexMap by decide), dif_pos (show (1 : Fin 2) ∈ G13.sKept by decide)]
  simp only [Nat.add_zero, Nat.zero_add]
  rfl

/-! ## The two gathers at explicit coordinates -/

/-- The gathered weights at `(b, c, d)`: the weight table at the slice the subject word of `b` names. -/
theorem v6_at (x1 : IVec S64 32) (x2 : FVec Ideal S8x256x256 .f32)
    (hs : ∀ i : S64.Idx, 0 ≤ (x1 i).toInt ∧ (x1 i).toInt < 8) (b : Fin 64) (c d : Fin 256) :
    val_main_v6 (F := Ideal) x1 x2 (ix3 b c d) = x2 (ix3 (Cert.Routed.slice x1 b) c d) := by
  show x2 (G6.operandIdx (ix3 b c d) (val_main_v5 (F := Ideal) x1)) = _
  congr 1
  funext a
  refine Fin.ext ?_
  match a with
  | ⟨0, _⟩ =>
    refine (g6_axis0 _ _).trans ?_
    show min (val_main_v5 (F := Ideal) x1 (ix2 b (0 : Fin 1))).toInt.toNat 7 = min (x1 (ix1 b)).toNat 7
    rw [v5_at _ _ (hs _).1, (toNat_of_range _ (hs (ix1 b)).1 (hs (ix1 b)).2).1]
  | ⟨1, _⟩ => exact g6_axis1 _ _
  | ⟨2, _⟩ => exact g6_axis2 _ _

/-- The gathered bias at `(b, d)`: the bias table at the slice the subject word of `b` names. -/
theorem v13_at (x1 : IVec S64 32) (x3 : FVec Ideal S8x256 .f32)
    (hs : ∀ i : S64.Idx, 0 ≤ (x1 i).toInt ∧ (x1 i).toInt < 8) (b : Fin 64) (d : Fin 256) :
    val_main_v13 (F := Ideal) x1 x3 (ix2 b d) = x3 (ix2 (Cert.Routed.slice x1 b) d) := by
  show x3 (G13.operandIdx (ix2 b d) (val_main_v12 (F := Ideal) x1)) = _
  congr 1
  funext a
  refine Fin.ext ?_
  match a with
  | ⟨0, _⟩ =>
    refine (g13_axis0 _ _).trans ?_
    show min (val_main_v12 (F := Ideal) x1 (ix2 b (0 : Fin 1))).toInt.toNat 7 = min (x1 (ix1 b)).toNat 7
    rw [v12_at _ _ (hs _).1, (toNat_of_range _ (hs (ix1 b)).1 (hs (ix1 b)).2).1]
  | ⟨1, _⟩ => exact g13_axis1 _ _

/-! ## The reference's result -/

/-- With every subject word's signed value in [0, 8), the reference's result over the extended reals is the
    routed layer: at `(b, d, t)` the contraction over the input channel `c` of the selected weight slice
    `w[σ b, c, d]` with `x[b, c, t]`, plus the selected bias `bias[σ b, d]`. -/
theorem ref_eq_layer (x0 : FVec Ideal S64x256x2048 .f32) (x1 : IVec S64 32) (x2 : FVec Ideal S8x256x256 .f32)
    (x3 : FVec Ideal S8x256 .f32)
    (hs : ∀ i : S64.Idx, 0 ≤ (x1 i).toInt ∧ (x1 i).toInt < 8) :
    val_main_v17 (F := Ideal) x0 x1 x2 x3 = Cert.Routed.layer x1 x0 x2 x3 := by
  funext i
  obtain ⟨b, d, t, rfl⟩ : ∃ (b : Fin 64) (d : Fin 256) (t : Fin 2048), i = ix3 b d t := ⟨i 0, i 1, i 2, eq_ix3 i⟩
  -- the contraction pairs the gathered weights at (b, k, d) with x at (b, k, t)
  have el : ∀ k : Fin 256, lidx_main_v14 (ix3 b d t) k = ix3 b k d := fun k => funext fun a => by
    match a with
    | ⟨0, _⟩ => rfl
    | ⟨1, _⟩ => rfl
    | ⟨2, _⟩ => rfl
  have er : ∀ k : Fin 256, ridx_main_v14 (ix3 b d t) k = ix3 b k t := fun k => funext fun a => by
    match a with
    | ⟨0, _⟩ => rfl
    | ⟨1, _⟩ => rfl
    | ⟨2, _⟩ => rfl
  -- the bias, spread along time, is read at (b, d)
  have eb : idx_main_v15 (idx_main_v16 (ix3 b d t)) = ix2 b d := funext fun a => by
    match a with
    | ⟨0, _⟩ => rfl
    | ⟨1, _⟩ => rfl
  rw [val_main_v17_apply, Ideal.addf_def, val_main_v14_apply, val_main_v16_apply, val_main_v15_apply, eb,
    v13_at x1 x3 hs, Cert.Routed.layer_apply]
  congr 1
  refine Finset.sum_congr rfl fun k _ => ?_
  rw [el, er, v6_at x1 x2 hs]

end Cert.ReferenceIdeal.Routed

end
-- ==== Proof.KernelBody.lean ====
/-
  The kernel body at one grid point, as a value.

  At a grid point the body loads an input block `x0 : [1, 256, 2048]` (input channel, time), a weight block
  `x1 : [1, 256, 256]` (output channel, input channel) and a bias column `x2 : [1, 256, 1]`, and stores, over the
  whole output block, the matrix product of the weight block with the input block plus the bias column repeated
  along time. Its one store covers the block, so the block ends holding exactly that value; over the extended
  reals the narrowing of the factors is the identity and the product into a zero accumulator is a plain sum:

      block[0, d, t] = (∑ k, x1[0, d, k] · x0[0, k, t]) + x2[0, d, 0].
-/
import proofs.«418299_j63428077027510_1_alg».proof.Defs
import proofs.«418299_j63428077027510_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open ValueIdx

namespace Cert.KernelIdeal.Body
open Cert.KernelIdeal Cert.KernelIdeal.Gen
variable {F : FTy → Type} [FloatOps F]

theorem hz3 : (![0, 0, 0] : Fin 3 → Nat) = fun _ => 0 := funext fun a => by fin_cases a <;> rfl

/-- The body's one store covers the output block, so what the block holds afterwards is the stored value:
    the body's arithmetic applied to the three input blocks. -/
theorem piece (c : Dev nD) (i : grid0.Coords) (arg2 : Memref sig .tc .vmem S1x256x2048 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S1x256x2048 .f32) (harg5 : arg5.IsWhole)
    (x0 : Vec F S1x256x2048 .f32) (x1 : Vec F S1x256x256 .f32) (x2 : Vec F S1x256x1 .f32) (xt0 : TbBuf0 (F := F) c tbM0_0) :
    out0_A_3 c i arg2 harg2 arg3 harg3 arg4 harg4 arg5 harg5 x0 x1 x2 xt0 = k0_pay1 x0 x1 x2 := by
  unfold out0_A_3
  rw [View.read_writes_eq_canon _ _ _ (cover0_A_3 c i arg2 harg2 arg3 harg3 arg4 harg4 arg5 harg5 x0 x1 x2 xt0)]
  unfold kernelRun0_A
  dsimp only
  sl_unfold_words
  rw [View.canon_unit_zero hz3]
  simp only [View.readAt_eq_ld, harg2.read_unread, harg3.read_unread, harg4.read_unread, View.ld_unit_zero (S := S1x256x2048) hz3, View.ld_unit_zero (S := S1x256x256) hz3, View.ld_unit_zero (S := S1x256x1) hz3]

end Cert.KernelIdeal.Body

namespace Cert.KernelIdeal.Body
open Cert.KernelIdeal Cert.KernelIdeal.Gen

/-! The matrix product's operand coordinates: the left factor is read at (row, k), the right at (k, column). -/

theorem lhs_0 (j : S256x2048.Idx) (q : dot_S256x256_S256x2048_S256x2048_1_0_0_1_n_n.contr.Idx) :
    (dot_S256x256_S256x2048_S256x2048_1_0_0_1_n_n.lhsIdx j q 0).val = (j 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem lhs_1 (j : S256x2048.Idx) (q : dot_S256x256_S256x2048_S256x2048_1_0_0_1_n_n.contr.Idx) :
    (dot_S256x256_S256x2048_S256x2048_1_0_0_1_n_n.lhsIdx j q 1).val = (q ⟨0, by decide⟩).val :=
  dot_S256x256_S256x2048_S256x2048_1_0_0_1_n_n.lhsIdx_val_of_single rfl j q
theorem rhs_0 (j : S256x2048.Idx) (q : dot_S256x256_S256x2048_S256x2048_1_0_0_1_n_n.contr.Idx) :
    (dot_S256x256_S256x2048_S256x2048_1_0_0_1_n_n.rhsIdx j q 0).val = (q ⟨0, by decide⟩).val :=
  dot_S256x256_S256x2048_S256x2048_1_0_0_1_n_n.rhsIdx_val_of_single rfl j q
theorem rhs_1 (j : S256x2048.Idx) (q : dot_S256x256_S256x2048_S256x2048_1_0_0_1_n_n.contr.Idx) :
    (dot_S256x256_S256x2048_S256x2048_1_0_0_1_n_n.rhsIdx j q 1).val = (j 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- Over the extended reals the matrix product into a zero accumulator is the plain sum over the shared axis. -/
theorem matmul_entry (l : FVec Ideal S256x256 .bf16) (r : FVec Ideal S256x2048 .bf16) (d : Fin 256) (t : Fin 2048) :
    matmul dot_S256x256_S256x2048_S256x2048_1_0_0_1_n_n none l r (constant (F := Ideal) S256x2048 .f32 0x00000000#32) (ix2 d t)
      = ∑ k : Fin 256, l (ix2 d k) * r (ix2 k t) := by
  refine (Ideal.matmul_constant_zero_apply dot_S256x256_S256x2048_S256x2048_1_0_0_1_n_n none l r (ix2 d t)).trans ?_
  rw [← Equiv.sum_comp (contrEquiv1 dot_S256x256_S256x2048_S256x2048_1_0_0_1_n_n 256 rfl rfl).symm]
  refine Finset.sum_congr rfl fun k _ => ?_
  have hk := contrEquiv1_symm_val dot_S256x256_S256x2048_S256x2048_1_0_0_1_n_n 256 rfl rfl k
  have el : dot_S256x256_S256x2048_S256x2048_1_0_0_1_n_n.lhsIdx (ix2 d t) ((contrEquiv1 dot_S256x256_S256x2048_S256x2048_1_0_0_1_n_n 256 rfl rfl).symm k) = ix2 d k := funext fun a => Fin.ext (by
    match a with
    | ⟨0, _⟩ => exact lhs_0 _ _
    | ⟨1, _⟩ => exact (lhs_1 _ _).trans hk)
  have er : dot_S256x256_S256x2048_S256x2048_1_0_0_1_n_n.rhsIdx (ix2 d t) ((contrEquiv1 dot_S256x256_S256x2048_S256x2048_1_0_0_1_n_n 256 rfl rfl).symm k) = ix2 k t := funext fun a => Fin.ext (by
    match a with
    | ⟨0, _⟩ => exact (rhs_0 _ _).trans hk
    | ⟨1, _⟩ => exact rhs_1 _ _)
  rw [el, er]

/-- Dropping a block's leading unit axis: entry (p, q) of the matrix is entry (0, p, q) of the block. -/
theorem drop_unit {α : Type} {A B : Nat} (v : (⟨3, ![1, A, B]⟩ : Shape).Idx → α)
    (h : (⟨3, ![1, A, B]⟩ : Shape).ShapeCasts ⟨2, ![A, B]⟩) (p : Fin A) (q : Fin B) :
    shapeCast ⟨2, ![A, B]⟩ v h (ix2 p q) = v (ix3 (0 : Fin 1) p q) := by
  refine (shapeCast_dropUnit_apply ![A, B] v h (ix2 p q)).trans (congrArg v (funext fun a => ?_))
  match a with
  | ⟨0, _⟩ => rfl
  | ⟨1, _⟩ => rfl
  | ⟨2, _⟩ => rfl

/-- THE BODY AT AN ENTRY: output channel `d`, time `t` of the stored block is the weight block's row `d` against the
    input block's column `t`, plus the bias column's entry `d` (the narrowing of the factors is the identity on the
    extended reals). -/
theorem pay_apply (x0 : Vec Ideal S1x256x2048 .f32) (x1 : Vec Ideal S1x256x256 .f32) (x2 : Vec Ideal S1x256x1 .f32)
    (d : Fin 256) (t : Fin 2048) :
    k0_pay1 (F := Ideal) x0 x1 x2 (ix3 (0 : Fin 1) d t)
      = (∑ k : Fin 256, x1 (ix3 (0 : Fin 1) d k) * x0 (ix3 (0 : Fin 1) k t)) + x2 (ix3 (0 : Fin 1) d (0 : Fin 1)) := by
  unfold k0_pay1
  refine (shapeCast_addUnit_apply ![256, 2048] _ _ (ix3 (0 : Fin 1) d t)).trans ?_
  have e : (fun a : Fin 2 => (ix3 (0 : Fin 1) d t) a.succ) = ix2 d t := funext fun a => by
    match a with
    | ⟨0, _⟩ => rfl
    | ⟨1, _⟩ => rfl
  rw [e, addf_apply, matmul_entry,
    broadcastTo_apply _ broadcasts_S256x1_S256x2048 (ix2 d t) (ix2 d (0 : Fin 1)) (fun a => by
      match a with
      | ⟨0, _⟩ => show d.val = if (256 : Nat) = 1 then 0 else d.val; rw [if_neg (by decide)]
      | ⟨1, _⟩ => show 0 = if (1 : Nat) = 1 then 0 else t.val; rw [if_pos rfl]),
    drop_unit]
  refine congrArg (· + _) (Finset.sum_congr rfl fun k _ => ?_)
  rw [truncf_apply, truncf_apply, drop_unit, drop_unit]

end Cert.KernelIdeal.Body

end
-- ==== Proof.KernelBlocks.lean ====
/-
  What each window of the grid holds at a grid point.

  The grid has one axis of 64 points, one per batch position. Before it runs, the host exchanges the two
  channel axes of the weight table (so a slice is laid out output channel by input channel) and gives the bias
  table a trailing unit axis. At point t the input window holds batch position t's slab of `x`; the weight
  and bias windows hold slice `s[t]` of the two prepared arrays, `s[t]` the t-th subject word read unsigned
  (that the selected blocks lie inside their arrays says exactly that this is below 8); the output window
  is batch position t's slab of the result.
-/
import proofs.«418299_j63428077027510_1_alg».proof.Defs
import proofs.«418299_j63428077027510_1_alg».proof.Proof.Gen.KernelIdeal.Frame
import proofs.«418299_j63428077027510_1_alg».proof.Proof.Routed
import proofs.«418299_j63428077027510_1_alg».proof.Proof.KernelBody
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open ValueIdx

namespace Cert.KernelIdeal.Layer
open Cert.KernelIdeal Cert.KernelIdeal.Gen

variable (m : (ℓ : Loc nD τ sig) → Buf (Elt Ideal) ℓ) (ρ : Dev nD → PrngReg)

/-- The four argument arrays on a device: input, subject words, weight table, bias table. -/
abbrev xs (c : Dev nD) : FVec Ideal S64x256x2048 .f32 := m ((c : Thread nD τ).loc main_arg0)
abbrev subj (c : Dev nD) : IVec S64 32 := m ((c : Thread nD τ).loc main_arg1)
abbrev ws (c : Dev nD) : FVec Ideal S8x256x256 .f32 := m ((c : Thread nD τ).loc main_arg2)
abbrev bs (c : Dev nD) : FVec Ideal S8x256 .f32 := m ((c : Thread nD τ).loc main_arg3)

/-! ## The two arrays the host prepares before the grid runs -/

/-- The weight table with its two channel axes exchanged, -/
theorem V_wt (c : Dev nD) : (V m c main_v0 : S8x256x256.Idx → EReal)
    = transpose S8x256x256 [0, 2, 1] (ws m c) Facts₀.transposes_S8x256x256_S8x256x256_0_2_1 := by
  dsimp only [V, hostOps0]; after_results

/-- and the bias table given a trailing unit axis. -/
theorem V_bc (c : Dev nD) : (V m c main_v1 : S8x256x1.Idx → EReal)
    = broadcastInDim S8x256x1 ![0, 1] Facts₀.bcast_S8x256_S8x256x1_0_1 (bs m c) := by
  dsimp only [V, hostOps0]; after_results

/-- Entry (s, d, k) of the exchanged table is entry (s, k, d) of the weight table. -/
theorem wt_apply (c : Dev nD) (s : Fin 8) (d k : Fin 256) :
    (V m c main_v0 : S8x256x256.Idx → EReal) (ix3 s d k) = ws m c (ix3 s k d) := by
  rw [V_wt]
  exact transpose_apply _ _ _ (ix3 s d k) (ix3 s k d) (fun b => by
    match b with
    | ⟨0, _⟩ => rfl
    | ⟨1, _⟩ => rfl
    | ⟨2, _⟩ => rfl)

/-- Entry (s, d, 0) of the bias column array is entry (s, d) of the bias table. -/
theorem bc_apply (c : Dev nD) (s : Fin 8) (d : Fin 256) :
    (V m c main_v1 : S8x256x1.Idx → EReal) (ix3 s d (0 : Fin 1)) = bs m c (ix2 s d) := by
  rw [V_bc]
  exact broadcastInDim_apply _ Facts₀.bcast_S8x256_S8x256x1_0_1 _ (ix3 s d (0 : Fin 1)) (ix2 s d) (fun a => by
    match a with
    | ⟨0, _⟩ => show s.val = if (8 : Nat) = 1 then 0 else s.val; rw [if_neg (by decide)]
    | ⟨1, _⟩ => show d.val = if (256 : Nat) = 1 then 0 else d.val; rw [if_neg (by decide)])

/-! ## Which block each window holds at a grid point -/

/-- The grid is one axis of 64 points: point t has coordinate t. -/
theorem coords0 : ∀ t : Fin grid0.N, (grid0.coords t (0 : Fin 1)).val = t.val := by decide +kernel

/-- The input and the output windows hold batch position t's slab at point t. -/
theorem idx0 : ∀ t : Fin grid0.N, cc0_transform_0 (grid0.coords t) (0 : Fin 3) = t.val ∧ cc0_transform_0 (grid0.coords t) (1 : Fin 3) = 0 ∧ cc0_transform_0 (grid0.coords t) (2 : Fin 3) = 0 := by decide +kernel
theorem idx3 : ∀ t : Fin grid0.N, cc0_transform_3 (grid0.coords t) (0 : Fin 3) = t.val ∧ cc0_transform_3 (grid0.coords t) (1 : Fin 3) = 0 ∧ cc0_transform_3 (grid0.coords t) (2 : Fin 3) = 0 := by decide +kernel

/-- The weight and bias windows hold, at a point with coordinate n, the slice the n-th subject word names. -/
theorem slice_index1 (pf : pre0.Contents (Elt Ideal)) (i : grid0.Coords) (n : Fin 64) (hn : (i 0).val = n.val) :
    cc0_transform_1 Facts₀.k0_off1_inb Facts₀.numel1_S1 pf i (0 : Fin 3) = (pf 0 (ix1 n)).toNat := by
  show (pf 0 ((Rect.unit (s := S64) ![(Scalar.indexCast (BitVec.ofNat 32 (i 0).val)).toNat] S1.size _).emb (Shape.Idx.first _))).toNat = _
  refine congrArg (fun j => (pf 0 j).toNat) (funext fun a => Fin.ext ?_)
  match a with
  | ⟨0, _⟩ =>
    show (BitVec.ofNat 32 (i 0).val).toNat + 1 * 0 = n.val
    rw [BitVec.toNat_ofNat, hn]
    have := n.isLt
    omega
theorem slice_index2 (pf : pre0.Contents (Elt Ideal)) (i : grid0.Coords) (n : Fin 64) (hn : (i 0).val = n.val) :
    cc0_transform_2 Facts₀.k0_off1_inb Facts₀.numel1_S1 pf i (0 : Fin 3) = (pf 0 (ix1 n)).toNat :=
  slice_index1 pf i n hn

variable (hO : Ok m)

/-- The batch position a grid point works on. -/
def pos (t : Fin (cfgM m hO).N) : Fin 64 := ⟨t.val, by have := t.isLt; have e : (cfgM m hO).N = 64 := N_0; omega⟩

/-- The slice the point's subject word names (below 8 because the block it selects lies inside its array). -/
def sl (t : Fin (cfgM m hO).N) : Fin 8 := ⟨(tbl m 0 (ix1 (pos m hO t))).toNat, by
  have h := (hO.1 ((cfgM m hO).grid.coords t)).elim fun h _ => h (0 : Fin 3)
  rw [slice_index1 (tbl m) _ (pos m hO t) (coords0 t)] at h
  have e : S1x256x256.size (0 : Fin 3) = 1 := rfl
  have e8 : S8x256x256.size (0 : Fin 3) = 8 := rfl
  rw [e, e8] at h
  omega⟩

/-- The input block at point t is batch position t's slab of the input. -/
theorem iblk0_apply (c : Dev nD) (t : Fin (cfgM m hO).N) (k : Fin 256) (u : Fin 2048) :
    (iblk m hO c 0 t : S1x256x2048.Idx → EReal) (ix3 (0 : Fin 1) k u) = xs m c (ix3 (pos m hO t) k u) := by
  show (V m c main_arg0 : S64x256x2048.Idx → EReal) _ = _
  refine (congrFun (V_main_arg0 m c) _).trans (congrArg (xs m c) (funext fun a => Fin.ext ?_))
  match a with
  | ⟨0, _⟩ => show cc0_transform_0 (grid0.coords t) (0 : Fin 3) * 1 + 1 * 0 = t.val; rw [(idx0 t).1]; omega
  | ⟨1, _⟩ => show cc0_transform_0 (grid0.coords t) (1 : Fin 3) * 256 + 1 * k.val = k.val; rw [(idx0 t).2.1]; omega
  | ⟨2, _⟩ => show cc0_transform_0 (grid0.coords t) (2 : Fin 3) * 2048 + 1 * u.val = u.val; rw [(idx0 t).2.2]; omega

/-- The weight block at point t is the named slice of the exchanged weight table. -/
theorem iblk1_apply (c : Dev nD) (t : Fin (cfgM m hO).N) (d k : Fin 256) :
    (iblk m hO c 1 t : S1x256x256.Idx → EReal) (ix3 (0 : Fin 1) d k) = (V m c main_v0 : S8x256x256.Idx → EReal) (ix3 (sl m hO t) d k) := by
  show (V m c main_v0 : S8x256x256.Idx → EReal) _ = _
  refine congrArg (V m c main_v0 : S8x256x256.Idx → EReal) (funext fun a => Fin.ext ?_)
  match a with
  | ⟨0, _⟩ => show cc0_transform_1 Facts₀.k0_off1_inb Facts₀.numel1_S1 (tbl m) (grid0.coords t) (0 : Fin 3) * 1 + 1 * 0 = (tbl m 0 (ix1 (pos m hO t))).toNat; rw [slice_index1 (tbl m) _ (pos m hO t) (coords0 t)]; omega
  | ⟨1, _⟩ => show 0 * 256 + 1 * d.val = d.val; omega
  | ⟨2, _⟩ => show 0 * 256 + 1 * k.val = k.val; omega

/-- The bias block at point t is the named slice of the bias column array. -/
theorem iblk2_apply (c : Dev nD) (t : Fin (cfgM m hO).N) (d : Fin 256) :
    (iblk m hO c 2 t : S1x256x1.Idx → EReal) (ix3 (0 : Fin 1) d (0 : Fin 1)) = (V m c main_v1 : S8x256x1.Idx → EReal) (ix3 (sl m hO t) d (0 : Fin 1)) := by
  show (V m c main_v1 : S8x256x1.Idx → EReal) _ = _
  refine congrArg (V m c main_v1 : S8x256x1.Idx → EReal) (funext fun a => Fin.ext ?_)
  match a with
  | ⟨0, _⟩ => show cc0_transform_2 Facts₀.k0_off1_inb Facts₀.numel1_S1 (tbl m) (grid0.coords t) (0 : Fin 3) * 1 + 1 * 0 = (tbl m 0 (ix1 (pos m hO t))).toNat; rw [slice_index2 (tbl m) _ (pos m hO t) (coords0 t)]; omega
  | ⟨1, _⟩ => show 0 * 256 + 1 * d.val = d.val; omega
  | ⟨2, _⟩ => show 0 * 1 + 1 * 0 = 0; omega

/-- The named slice is the specification's slice of the subject words. -/
theorem sl_eq (c : Dev nD) (t : Fin (cfgM m hO).N) : sl m hO t = Cert.Routed.slice (subj m c) (pos m hO t) := by
  obtain rfl : c = 0 := Subsingleton.elim _ _
  have e : tbl m 0 = subj m 0 := V_main_arg1 m 0
  refine Fin.ext ?_
  have h := (sl m hO t).isLt
  show (tbl m 0 (ix1 (pos m hO t))).toNat = min ((subj m 0) (ix1 (pos m hO t))).toNat 7
  have h' : (tbl m 0 (ix1 (pos m hO t))).toNat < 8 := h
  rw [e] at h' ⊢
  omega

end Cert.KernelIdeal.Layer

end
-- ==== Proof.KernelValue.lean ====
/-
  The result array of the kernel is the routed layer.

  At grid point t the body leaves in the output block, at (d, u), the weight block's row d against the input
  block's column u plus the bias column's entry d. With the blocks read off their arrays this is
  (∑ k, w[σ t, k, d] · x[t, k, u]) + bias[σ t, d]: entry (t, d, u) of the layer. Point t writes its block back
  to batch position t's slab of the result array, the 64 slabs cover the array, so the array ends holding the
  layer, and the argument arrays are untouched.
-/
import proofs.«418299_j63428077027510_1_alg».proof.Proof.KernelBlocks

set_option maxRecDepth 16384

noncomputable section

open Idealize.ShloMosaic Idealize.ShloMosaic.TcCoe Idealize.SL.Sem
open Idealize.ShloMosaic.Pipeline (Dat)
open ValueIdx

namespace Cert.KernelIdeal.Layer
open Cert.KernelIdeal Cert.KernelIdeal.Gen

variable (m : (ℓ : Loc nD τ sig) → Buf (Elt Ideal) ℓ) (ρ : Dev nD → PrngReg)
variable (hO : Ok m)

/-! ## The result array -/

/-- The layer of the device's four argument arrays. -/
abbrev result (c : Dev nD) : FVec Ideal S64x256x2048 .f32 := Cert.Routed.layer (subj m c) (xs m c) (ws m c) (bs m c)

/-- Batch position t's slab of the result array, read through the output window's block at point t. -/
theorem result_blk (c : Dev nD) (t : Fin (cfgM m hO).N) (d : Fin 256) (u : Fin 2048) :
    ((((cfgM m hO).win 3).blk t).view.read (Elt Ideal) (result m c) : S1x256x2048.Idx → EReal) (ix3 (0 : Fin 1) d u)
      = result m c (ix3 (pos m hO t) d u) := by
  show result m c _ = _
  refine congrArg (result m c) (funext fun a => Fin.ext ?_)
  match a with
  | ⟨0, _⟩ => show cc0_transform_3 (grid0.coords t) (0 : Fin 3) * 1 + 1 * 0 = t.val; rw [(idx3 t).1]; omega
  | ⟨1, _⟩ => show cc0_transform_3 (grid0.coords t) (1 : Fin 3) * 256 + 1 * d.val = d.val; rw [(idx3 t).2.1]; omega
  | ⟨2, _⟩ => show cc0_transform_3 (grid0.coords t) (2 : Fin 3) * 2048 + 1 * u.val = u.val; rw [(idx3 t).2.2]; omega

/-- The body's value at point t, entry (d, u): batch position t's entry of the layer. -/
theorem body_at (c : Dev nD) (t : Fin (cfgM m hO).N) (d : Fin 256) (u : Fin 2048) :
    Cert.KernelIdeal.Gen.k0_pay1 (F := Ideal) (iblk m hO c 0 t) (iblk m hO c 1 t) (iblk m hO c 2 t) (ix3 (0 : Fin 1) d u)
      = result m c (ix3 (pos m hO t) d u) := by
  refine (Cert.KernelIdeal.Body.pay_apply (iblk m hO c 0 t) (iblk m hO c 1 t) (iblk m hO c 2 t) d u).trans ?_
  refine Eq.trans ?_ (Cert.Routed.layer_apply (subj m c) (xs m c) (ws m c) (bs m c) (pos m hO t) d u).symm
  refine congrArg₂ (· + ·) (Finset.sum_congr rfl fun k _ => ?_) ?_
  · refine congrArg₂ (· * ·) ?_ (iblk0_apply m hO c t k u)
    exact (iblk1_apply m hO c t d k).trans ((wt_apply m c _ d k).trans (by rw [sl_eq m hO c t]))
  · exact (iblk2_apply m hO c t d).trans ((bc_apply m c _ d).trans (by rw [sl_eq m hO c t]))

/-- WHAT POINT t WRITES BACK is batch position t's slab of the layer. -/
theorem flushed_eq (c : Dev nD) (t : Fin (cfgM m hO).N) :
    (dats m hO 0 c).flushed 3 t = (((cfgM m hO).win 3).blk t).view.read (Elt Ideal) (result m c) := by
  show ((cfgM m hO).win 3).cut ((cfgM m hO).grid.coords t) ((dats m hO 0 c).after 3 t) = _
  rw [after0_3]
  unfold outsAt0
  refine Eq.trans (congrArg (((cfgM m hO).win 3).cut ((cfgM m hO).grid.coords t))
    (Cert.KernelIdeal.Body.piece c _ _ _ _ _ _ _ _ _ (iblk m hO c 0 t) (iblk m hO c 1 t) (iblk m hO c 2 t) (tbl m 0))) ?_
  refine funext fun (y : S1x256x2048.Idx) => ?_
  obtain ⟨d, u, rfl⟩ : ∃ (d : Fin 256) (u : Fin 2048), y = ix3 (0 : Fin 1) d u :=
    ⟨⟨(y 1).val, (y 1).isLt⟩, ⟨(y 2).val, (y 2).isLt⟩, funext fun a => Fin.ext (by
      match a with
      | ⟨0, _⟩ => have h : (y 0).val < 1 := (y 0).isLt; show (y 0).val = 0; omega
      | ⟨1, _⟩ => rfl
      | ⟨2, _⟩ => rfl)⟩
  exact (body_at m hO c t d u).trans (result_blk m hO c t d u).symm

/-- Every index of the result array lies in the slab some point writes back: its batch position's. -/
theorem cover (i : S64x256x2048.Idx) :
    ∃ t : Fin (cfgM m hO).N, ((cfgM m hO).win 3).flush t = true ∧ i ∈ (((cfgM m hO).win 3).blk t).view.set := by
  have hN : (cfgM m hO).N = 64 := N_0
  have h0 : (i 0).val < 64 := (i 0).isLt
  have h1 : (i 1).val < 256 := (i 1).isLt
  have h2 : (i 2).val < 2048 := (i 2).isLt
  have hlt : (i 0).val < (cfgM m hO).N := by rw [hN]; exact h0
  refine ⟨⟨(i 0).val, hlt⟩, flush0_3 (adm m hO) _, ?_⟩
  obtain ⟨e0', e1, e2⟩ := idx3 ⟨(i 0).val, hlt⟩
  have e0 : cc0_transform_3 (grid0.coords ⟨(i 0).val, hlt⟩) (0 : Fin 3) = (i 0).val := e0'
  show i ∈ ((View.whole main_v2).slice (((cfgM m hO).win 3).rect ⟨(i 0).val, hlt⟩)).set
  refine Eq.mpr (congrArg (fun S => i ∈ S) (View.set_slice_whole main_v2 (((cfgM m hO).win 3).rect ⟨(i 0).val, hlt⟩))) ?_
  refine Rect.mem_set_unit.mpr fun (a : Fin 3) => ?_
  match a with
  | ⟨0, _⟩ => show cc0_transform_3 (grid0.coords ⟨(i 0).val, hlt⟩) (0 : Fin 3) * 1 ≤ (i 0).val ∧ (i 0).val < cc0_transform_3 (grid0.coords ⟨(i 0).val, hlt⟩) (0 : Fin 3) * 1 + 1; rw [e0]; omega
  | ⟨1, _⟩ => show cc0_transform_3 (grid0.coords ⟨(i 0).val, hlt⟩) (1 : Fin 3) * 256 ≤ (i 1).val ∧ (i 1).val < cc0_transform_3 (grid0.coords ⟨(i 0).val, hlt⟩) (1 : Fin 3) * 256 + 256; rw [e1]; omega
  | ⟨2, _⟩ => show cc0_transform_3 (grid0.coords ⟨(i 0).val, hlt⟩) (2 : Fin 3) * 2048 ≤ (i 2).val ∧ (i 2).val < cc0_transform_3 (grid0.coords ⟨(i 0).val, hlt⟩) (2 : Fin 3) * 2048 + 2048; rw [e2]; omega

/-- So the result array ends holding the layer. -/
theorem final (c : Dev nD) : (dats m hO 0 c).arrAt 3 (cfgM m hO).N = result m c :=
  (dats m hO 0 c).arrAt_eq_of_cover 3 (result m c) (fun t _ => flushed_eq m hO c t) (cover m hO)

include hO in
/-- THE RUN, READ: every execution ends with the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 3).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

end Cert.KernelIdeal.Layer

end
-- ==== Proof.lean ====
/-
  The certificate of the subject-routed layer.

  Both programs compute, for a batch of 64 inputs x[b] : [256, 2048] (input channel, time), each carrying a
  subject word s[b] that names one of 8 weight matrices and bias vectors,

      out[b, d, t] = (∑ c, w[s[b], c, d] · x[b, c, t]) + bias[s[b], d].

  The kernel does it with a grid of 64 points whose weight and bias windows pick slice s[b] of the tables; the
  reference gathers the slices and contracts them with x. The precondition says the float inputs are finite and
  every subject word lies in [0, 8); only the second part is used: it puts the kernel's selected blocks inside
  their arrays (so the kernel runs: the two frames), and it makes the reference's index the word itself (no
  wrap-around, no clamping). Over the extended reals both results are the same sums of the same products, so no
  finiteness is needed. The idealization rewrote nothing.
-/
import proofs.«418299_j63428077027510_1_alg».proof.Defs
import proofs.«418299_j63428077027510_1_alg».proof.Proof.Gen.Kernel
import proofs.«418299_j63428077027510_1_alg».proof.Proof.Gen.Kernel.Skeleton
import proofs.«418299_j63428077027510_1_alg».proof.Proof.Gen.Kernel.Launch
import proofs.«418299_j63428077027510_1_alg».proof.Proof.Gen.Kernel.Points
import proofs.«418299_j63428077027510_1_alg».proof.Proof.Gen.Kernel.Frame
import proofs.«418299_j63428077027510_1_alg».proof.Proof.Gen.KernelIdeal
import proofs.«418299_j63428077027510_1_alg».proof.Proof.Gen.KernelIdeal.Skeleton
import proofs.«418299_j63428077027510_1_alg».proof.Proof.Gen.KernelIdeal.Launch
import proofs.«418299_j63428077027510_1_alg».proof.Proof.Gen.KernelIdeal.Points
import proofs.«418299_j63428077027510_1_alg».proof.Proof.Gen.KernelIdeal.Frame
import proofs.«418299_j63428077027510_1_alg».proof.Proof.Gen.ReferenceIdeal
import proofs.«418299_j63428077027510_1_alg».proof.Proof.Gen.ReferenceIdeal.Run
import proofs.«418299_j63428077027510_1_alg».proof.Proof.Gen.ReferenceIdeal.Read
import proofs.«418299_j63428077027510_1_alg».proof.Proof.Gen.Pre_finite_inputs
import proofs.«418299_j63428077027510_1_alg».proof.Proof.SubjectRange
import proofs.«418299_j63428077027510_1_alg».proof.Proof.OkKernel
import proofs.«418299_j63428077027510_1_alg».proof.Proof.OkKernelIdeal
import proofs.«418299_j63428077027510_1_alg».proof.Proof.Routed
import proofs.«418299_j63428077027510_1_alg».proof.Proof.RefRouted
import proofs.«418299_j63428077027510_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the selected blocks lie inside their arrays. -/
theorem frame_k : Cert.frame_Kernel := fun m ρ h => Cert.Kernel.Gen.frame m ρ (Cert.Kernel.SubjectOk.ok_of_pre m h)

/-- So does its reading over the extended reals. -/
theorem frame_ki : Cert.frame_KernelIdeal := fun m ρ h => Cert.KernelIdeal.Gen.frame m ρ (Cert.KernelIdeal.SubjectOk.ok_of_pre m h)

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the routed layer of the (shared) arguments. -/
theorem algebraic : Cert.algebraic_KernelIdeal_ReferenceIdeal := by
  intro m ρ m' ρ' hpre hagree
  refine ⟨fun c => Cert.KernelIdeal.Layer.result m c,
    Cert.KernelIdeal.Layer.run m ρ (Cert.KernelIdeal.SubjectOk.ok_of_pre m hpre), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v17_eq]
  exact Cert.ReferenceIdeal.Routed.ref_eq_layer _ _ _ _ (fun i => Cert.SubjectRange.signed_range _ _ _ _ (hpre c) i)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
